-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x200000 : Shape := ⟨2, ![2, 200000]⟩
abbrev S20000 : Shape := ⟨1, ![20000]⟩
abbrev S2x399546 : Shape := ⟨2, ![2, 399546]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000 : S_.BroadcastsInDim S20000 (![] : Fin 0 → Fin S20000.rank)
  reducesTo_S20000_S_d0 : S20000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : IVec S2x200000 32) (main_arg2 : FVec F S20000 .f32) (main_arg3 : IVec S2x399546 32) (main_arg4 : FVec F S256x256 .f32) (main_arg5 : FVec F S256 .f32) (main_arg6 : FVec F S256x256 .f32) (main_arg7 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000 .f32 := Host.absf main_arg2
  let main_cst_0 : FVec F S_ .f32 := constant S_ .f32 0x7F800000#32
  let main_v5 : FVec F S20000 .f32 := broadcastInDim S20000 ![] bcast_S_S20000 main_cst_0
  let main_v6 : IVec S20000 1 := cmpf .olt main_v4 main_v5
  let main_c_1 : IVec S_ 1 := constantI S_ 1 1#1
  let main_v7 : IVec S_ 1 := (fun x v => Host.reduce IntOp.andi x v reducesTo_S20000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S100000x256 : Shape := ⟨2, ![100000, 256]⟩
abbrev S2x200000 : Shape := ⟨2, ![2, 200000]⟩
abbrev S20000 : Shape := ⟨1, ![20000]⟩
abbrev S2x399546 : Shape := ⟨2, ![2, 399546]⟩
abbrev S256x256 : Shape := ⟨2, ![256, 256]⟩
abbrev S256 : Shape := ⟨1, ![256]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x256 : Shape := ⟨2, ![200000, 256]⟩
abbrev S20000x256 : Shape := ⟨2, ![20000, 256]⟩
abbrev S20000x1 : Shape := ⟨2, ![20000, 1]⟩
abbrev S1x399546 : Shape := ⟨2, ![1, 399546]⟩
abbrev S399546 : Shape := ⟨1, ![399546]⟩
abbrev S399546x1 : Shape := ⟨2, ![399546, 1]⟩
abbrev S399546x256 : Shape := ⟨2, ![399546, 256]⟩
abbrev S1x256 : Shape := ⟨2, ![1, 256]⟩
abbrev S400000x256 : Shape := ⟨2, ![400000, 256]⟩
abbrev S4000x256 : Shape := ⟨2, ![4000, 256]⟩
abbrev S2000x256 : Shape := ⟨2, ![2000, 256]⟩
abbrev S2000x1 : Shape := ⟨2, ![2000, 1]⟩
abbrev S2000 : Shape := ⟨1, ![2000]⟩

abbrev nBuf : Space → Nat
  | .hbm => 80
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x200000, .i32⟩
  | .hbm, ⟨2, _⟩ => ⟨S20000, .f32⟩
  | .hbm, ⟨3, _⟩ => ⟨S2x399546, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x200000, .i32⟩
  | .hbm, ⟨9, _⟩ => ⟨S200000, .i32⟩
  | .hbm, ⟨10, _⟩ => ⟨S1x200000, .i32⟩
  | .hbm, ⟨11, _⟩ => ⟨S200000, .i32⟩
  | .hbm, ⟨12, _⟩ => ⟨S_, .i32⟩
  | .hbm, ⟨13, _⟩ => ⟨S200000, .i32⟩
  | .hbm, ⟨14, _⟩ => ⟨S200000, .i1⟩
  | .hbm, ⟨15, _⟩ => ⟨S_, .i32⟩
  | .hbm, ⟨16, _⟩ => ⟨S200000, .i32⟩
  | .hbm, ⟨17, _⟩ => ⟨S200000, .i32⟩
  | .hbm, ⟨18, _⟩ => ⟨S200000, .i32⟩
  | .hbm, ⟨19, _⟩ => ⟨S200000x1, .i32⟩
  | .hbm, ⟨20, _⟩ => ⟨S200000x256, .f32⟩
  | .hbm, ⟨21, _⟩ => ⟨S_, .f32⟩
  | .hbm, ⟨22, _⟩ => ⟨S20000x256, .f32⟩
  | .hbm, ⟨23, _⟩ => ⟨S200000x1, .i32⟩
  | .hbm, ⟨24, _⟩ => ⟨S20000x256, .f32⟩
  | .hbm, ⟨25, _⟩ => ⟨S_, .f32⟩
  | .hbm, ⟨26, _⟩ => ⟨S200000, .f32⟩
  | .hbm, ⟨27, _⟩ => ⟨S_, .f32⟩
  | .hbm, ⟨28, _⟩ => ⟨S20000, .f32⟩
  | .hbm, ⟨29, _⟩ => ⟨S200000x1, .i32⟩
  | .hbm, ⟨30, _⟩ => ⟨S20000, .f32⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S20000x1, .f32⟩
  | .hbm, ⟨36, _⟩ => ⟨S20000x256, .f32⟩
  | .hbm, ⟨37, _⟩ => ⟨S20000x256, .f32⟩
  | .hbm, ⟨38, _⟩ => ⟨S1x399546, .i32⟩
  | .hbm, ⟨39, _⟩ => ⟨S399546, .i32⟩
  | .hbm, ⟨40, _⟩ => ⟨S1x399546, .i32⟩
  | .hbm, ⟨41, _⟩ => ⟨S399546, .i32⟩
  | .hbm, ⟨42, _⟩ => ⟨S_, .i32⟩
  | .hbm, ⟨43, _⟩ => ⟨S399546, .i32⟩
  | .hbm, ⟨44, _⟩ => ⟨S399546, .i1⟩
  | .hbm, ⟨45, _⟩ => ⟨S_, .i32⟩
  | .hbm, ⟨46, _⟩ => ⟨S399546, .i32⟩
  | .hbm, ⟨47, _⟩ => ⟨S399546, .i32⟩
  | .hbm, ⟨48, _⟩ => ⟨S399546, .i32⟩
  | .hbm, ⟨49, _⟩ => ⟨S399546x1, .i32⟩
  | .hbm, ⟨50, _⟩ => ⟨S399546x256, .f32⟩
  | .hbm, ⟨51, _⟩ => ⟨S256x256, .f32⟩
  | .hbm, ⟨52, _⟩ => ⟨S256x256, .f32⟩
  | .hbm, ⟨53, _⟩ => ⟨S1x256, .f32⟩
  | .hbm, ⟨54, _⟩ => ⟨S1x256, .f32⟩
  | .hbm, ⟨55, _⟩ => ⟨S_, .i32⟩
  | .hbm, ⟨56, _⟩ => ⟨S_, .f32⟩
  | .hbm, ⟨57, _⟩ => ⟨S400000x256, .f32⟩
  | .hbm, ⟨58, _⟩ => ⟨S400000x256, .f32⟩
  | .hbm, ⟨59, _⟩ => ⟨S399546x256, .f32⟩
  | .hbm, ⟨60, _⟩ => ⟨S_, .f32⟩
  | .hbm, ⟨61, _⟩ => ⟨S20000x256, .f32⟩
  | .hbm, ⟨62, _⟩ => ⟨S399546x1, .i32⟩
  | .hbm, ⟨63, _⟩ => ⟨S20000x256, .f32⟩
  | .hbm, ⟨64, _⟩ => ⟨S_, .f32⟩
  | .hbm, ⟨65, _⟩ => ⟨S20000x256, .f32⟩
  | .hbm, ⟨66, _⟩ => ⟨S20000x256, .f32⟩
  | .hbm, ⟨67, _⟩ => ⟨S20000x256, .f32⟩
  | .hbm, ⟨68, _⟩ => ⟨S20000x1, .f32⟩
  | .hbm, ⟨69, _⟩ => ⟨S20000, .f32⟩
  | .hbm, ⟨70, _⟩ => ⟨S_, .f32⟩
  | .hbm, ⟨71, _⟩ => ⟨S_, .f32⟩
  | .hbm, ⟨72, _⟩ => ⟨S20000, .f32⟩
  | .hbm, ⟨73, _⟩ => ⟨S20000, .f32⟩
  | .hbm, ⟨74, _⟩ => ⟨S_, .f32⟩
  | .hbm, ⟨75, _⟩ => ⟨S20000, .f32⟩
  | .hbm, ⟨76, _⟩ => ⟨S20000, .f32⟩
  | .hbm, ⟨77, _⟩ => ⟨S_, .f32⟩
  | .hbm, ⟨78, _⟩ => ⟨S20000, .f32⟩
  | .hbm, ⟨79, _⟩ => ⟨S20000, .f32⟩
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S4000x256, .f32⟩
  | .local _ .vmem, ⟨7, _⟩ => ⟨S4000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S2x399546_S1x399546_0_0 : S2x399546.Slices ![0, 0] S1x399546
  shapeCasts_S1x399546_S399546 : S1x399546.ShapeCasts S399546
  slices_S2x399546_S1x399546_1_0 : S2x399546.Slices ![1, 0] S1x399546
  bcast_S_S399546 : S_.BroadcastsInDim S399546 (![] : Fin 0 → Fin S399546.rank)
  bcast_S399546_S399546x1_0 : S399546.BroadcastsInDim S399546x1 (![0] : Fin 1 → Fin S399546x1.rank)
  transposes_S256x256_S256x256_1_0 : S256x256.Transposes [1, 0] S256x256
  shapeCasts_S256_S1x256 : S256.ShapeCasts S1x256
  pads_S399546x256_S400000x256_04540_000 : S399546x256.Pads (![0, 0] : Fin 2 → Nat) ![454, 0] ![0, 0] S400000x256
  h_S_ : 0 < S_.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  slices_S400000x256_S399546x256_0_0 : S400000x256.Slices ![0, 0] S399546x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S20000x1_S20000 : S20000x1.ShapeCasts S20000
  reducesTo_S20000_S_d0 : S20000.ReducesTo [0] S_
  gather_S100000x256_S200000x1_S200000x256_1_0_n_n_0_1_1256_wf : GatherDims.WF S100000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  gather_S20000x256_S399546x1_S399546x256_1_0_n_n_0_1_1256_wf : GatherDims.WF S20000x256 S399546x1 S399546x256 [1] [0] [] [0] [] 1 ![1, 256]
  dot_S4000x256_S256x256_S4000x256_1_0_0_1_n_n_wf : DotDims.WF S4000x256 S256x256 S4000x256 [1] [0] [0] [1] [] []
  scatter_S20000x256_S399546x1_S399546x256_1_0_0_1_wf : ScatterDims.WF S20000x256 S399546x1 S399546x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S400000x256.size a
  hwx0_0 : ∀ i : grid0.Coords, EltTy.bits .f32 = 32 ∨ (Rect.block (s := S400000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S400000x256.size a
  hwx0_5 : ∀ i : grid0.Coords, EltTy.bits .f32 = 32 ∨ (Rect.block (s := S400000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)

variable [Facts₀]

def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000x256_S399546x1_S399546x256_1_0_n_n_0_1_1256 : GatherDims S20000x256 S399546x1 S399546x256 where
  offsetDims := [1]
  collapsedSliceDims := [0]
  operandBatchingDims := []
  startIndicesBatchingDims := []
  startIndexMap := [0]
  indexVectorDim := 1
  sliceSizes := ![1, 256]
  wf := gather_S20000x256_S399546x1_S399546x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S20000x256_S399546x1_S399546x256_1_0_0_1 : ScatterDims S20000x256 S399546x1 S399546x256 where
  updateWindowDims := [1]
  insertedWindowDims := [0]
  scatterDimsToOperandDims := [0]
  indexVectorDim := 1
  wf := scatter_S20000x256_S399546x1_S399546x256_1_0_0_1_wf

abbrev win0_0 : Pipeline.Window sig grid0 :=
  Pipeline.Window.ofSpec (Memref.whole main_v37) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x200000 : Shape := ⟨2, ![2, 200000]⟩
abbrev S20000 : Shape := ⟨1, ![20000]⟩
abbrev S2x399546 : Shape := ⟨2, ![2, 399546]⟩
abbrev S256x256 : Shape := ⟨2, ![256, 256]⟩
abbrev S256 : Shape := ⟨1, ![256]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x256 : Shape := ⟨2, ![200000, 256]⟩
abbrev S20000x256 : Shape := ⟨2, ![20000, 256]⟩
abbrev S20000x1 : Shape := ⟨2, ![20000, 1]⟩
abbrev S1x399546 : Shape := ⟨2, ![1, 399546]⟩
abbrev S399546 : Shape := ⟨1, ![399546]⟩
abbrev S399546x1 : Shape := ⟨2, ![399546, 1]⟩
abbrev S399546x256 : Shape := ⟨2, ![399546, 256]⟩
abbrev S1x256 : Shape := ⟨2, ![1, 256]⟩

abbrev nBuf : Space → Nat
  | .hbm => 86
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x200000, .i32⟩
  | .hbm, ⟨2, _⟩ => ⟨S20000, .f32⟩
  | .hbm, ⟨3, _⟩ => ⟨S2x399546, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x200000, .i32⟩
  | .hbm, ⟨9, _⟩ => ⟨S200000, .i32⟩
  | .hbm, ⟨10, _⟩ => ⟨S1x200000, .i32⟩
  | .hbm, ⟨11, _⟩ => ⟨S200000, .i32⟩
  | .hbm, ⟨12, _⟩ => ⟨S_, .i32⟩
  | .hbm, ⟨13, _⟩ => ⟨S200000, .i32⟩
  | .hbm, ⟨14, _⟩ => ⟨S200000, .i1⟩
  | .hbm, ⟨15, _⟩ => ⟨S_, .i32⟩
  | .hbm, ⟨16, _⟩ => ⟨S200000, .i32⟩
  | .hbm, ⟨17, _⟩ => ⟨S200000, .i32⟩
  | .hbm, ⟨18, _⟩ => ⟨S200000, .i32⟩
  | .hbm, ⟨19, _⟩ => ⟨S200000x1, .i32⟩
  | .hbm, ⟨20, _⟩ => ⟨S200000x256, .f32⟩
  | .hbm, ⟨21, _⟩ => ⟨S_, .f32⟩
  | .hbm, ⟨22, _⟩ => ⟨S20000x256, .f32⟩
  | .hbm, ⟨23, _⟩ => ⟨S200000x1, .i32⟩
  | .hbm, ⟨24, _⟩ => ⟨S20000x256, .f32⟩
  | .hbm, ⟨25, _⟩ => ⟨S_, .f32⟩
  | .hbm, ⟨26, _⟩ => ⟨S200000, .f32⟩
  | .hbm, ⟨27, _⟩ => ⟨S_, .f32⟩
  | .hbm, ⟨28, _⟩ => ⟨S20000, .f32⟩
  | .hbm, ⟨29, _⟩ => ⟨S200000x1, .i32⟩
  | .hbm, ⟨30, _⟩ => ⟨S20000, .f32⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S20000x1, .f32⟩
  | .hbm, ⟨36, _⟩ => ⟨S20000x256, .f32⟩
  | .hbm, ⟨37, _⟩ => ⟨S20000x256, .f32⟩
  | .hbm, ⟨38, _⟩ => ⟨S1x399546, .i32⟩
  | .hbm, ⟨39, _⟩ => ⟨S399546, .i32⟩
  | .hbm, ⟨40, _⟩ => ⟨S1x399546, .i32⟩
  | .hbm, ⟨41, _⟩ => ⟨S399546, .i32⟩
  | .hbm, ⟨42, _⟩ => ⟨S_, .i32⟩
  | .hbm, ⟨43, _⟩ => ⟨S399546, .i32⟩
  | .hbm, ⟨44, _⟩ => ⟨S399546, .i1⟩
  | .hbm, ⟨45, _⟩ => ⟨S_, .i32⟩
  | .hbm, ⟨46, _⟩ => ⟨S399546, .i32⟩
  | .hbm, ⟨47, _⟩ => ⟨S399546, .i32⟩
  | .hbm, ⟨48, _⟩ => ⟨S399546, .i32⟩
  | .hbm, ⟨49, _⟩ => ⟨S399546x1, .i32⟩
  | .hbm, ⟨50, _⟩ => ⟨S399546x256, .f32⟩
  | .hbm, ⟨51, _⟩ => ⟨S256x256, .f32⟩
  | .hbm, ⟨52, _⟩ => ⟨S399546x256, .f32⟩
  | .hbm, ⟨53, _⟩ => ⟨S1x256, .f32⟩
  | .hbm, ⟨54, _⟩ => ⟨S399546x256, .f32⟩
  | .hbm, ⟨55, _⟩ => ⟨S399546x256, .f32⟩
  | .hbm, ⟨56, _⟩ => ⟨S_, .f32⟩
  | .hbm, ⟨57, _⟩ => ⟨S399546x256, .f32⟩
  | .hbm, ⟨58, _⟩ => ⟨S399546x256, .f32⟩
  | .hbm, ⟨59, _⟩ => ⟨S256x256, .f32⟩
  | .hbm, ⟨60, _⟩ => ⟨S399546x256, .f32⟩
  | .hbm, ⟨61, _⟩ => ⟨S1x256, .f32⟩
  | .hbm, ⟨62, _⟩ => ⟨S399546x256, .f32⟩
  | .hbm, ⟨63, _⟩ => ⟨S399546x256, .f32⟩
  | .hbm, ⟨64, _⟩ => ⟨S_, .f32⟩
  | .hbm, ⟨65, _⟩ => ⟨S20000x256, .f32⟩
  | .hbm, ⟨66, _⟩ => ⟨S399546x1, .i32⟩
  | .hbm, ⟨67, _⟩ => ⟨S20000x256, .f32⟩
  | .hbm, ⟨68, _⟩ => ⟨S_, .f32⟩
  | .hbm, ⟨69, _⟩ => ⟨S20000x256, .f32⟩
  | .hbm, ⟨70, _⟩ => ⟨S20000x256, .f32⟩
  | .hbm, ⟨71, _⟩ => ⟨S20000x256, .f32⟩
  | .hbm, ⟨72, _⟩ => ⟨S20000x256, .f32⟩
  | .hbm, ⟨73, _⟩ => ⟨S_, .f32⟩
  | .hbm, ⟨74, _⟩ => ⟨S20000, .f32⟩
  | .hbm, ⟨75, _⟩ => ⟨S20000, .f32⟩
  | .hbm, ⟨76, _⟩ => ⟨S_, .f32⟩
  | .hbm, ⟨77, _⟩ => ⟨S_, .f32⟩
  | .hbm, ⟨78, _⟩ => ⟨S20000, .f32⟩
  | .hbm, ⟨79, _⟩ => ⟨S20000, .f32⟩
  | .hbm, ⟨80, _⟩ => ⟨S_, .f32⟩
  | .hbm, ⟨81, _⟩ => ⟨S20000, .f32⟩
  | .hbm, ⟨82, _⟩ => ⟨S20000, .f32⟩
  | .hbm, ⟨83, _⟩ => ⟨S_, .f32⟩
  | .hbm, ⟨84, _⟩ => ⟨S20000, .f32⟩
  | .hbm, ⟨85, _⟩ => ⟨S20000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_v0 : Ref sig .tc := ⟨.hbm, 72, rfl⟩
abbrev main_call2_cst : Ref sig .tc := ⟨.hbm, 73, rfl⟩
abbrev main_call2_v1 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S2x399546_S1x399546_0_0 : S2x399546.Slices ![0, 0] S1x399546
  shapeCasts_S1x399546_S399546 : S1x399546.ShapeCasts S399546
  slices_S2x399546_S1x399546_1_0 : S2x399546.Slices ![1, 0] S1x399546
  bcast_S_S399546 : S_.BroadcastsInDim S399546 (![] : Fin 0 → Fin S399546.rank)
  bcast_S399546_S399546x1_0 : S399546.BroadcastsInDim S399546x1 (![0] : Fin 1 → Fin S399546x1.rank)
  transposes_S256x256_S256x256_1_0 : S256x256.Transposes [1, 0] S256x256
  bcast_S256_S1x256_1 : S256.BroadcastsInDim S1x256 (![1] : Fin 1 → Fin S1x256.rank)
  bcast_S1x256_S399546x256_0_1 : S1x256.BroadcastsInDim S399546x256 (![0, 1] : Fin 2 → Fin S399546x256.rank)
  bcast_S_S399546x256 : S_.BroadcastsInDim S399546x256 (![] : Fin 0 → Fin S399546x256.rank)
  reducesTo_S20000x256_S20000_d1 : S20000x256.ReducesTo [1] S20000
  h_S_ : 0 < S_.numel
  reducesTo_S20000_S_d0 : S20000.ReducesTo [0] S_
  gather_S100000x256_S200000x1_S200000x256_1_0_n_n_0_1_1256_wf : GatherDims.WF S100000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  gather_S20000x256_S399546x1_S399546x256_1_0_n_n_0_1_1256_wf : GatherDims.WF S20000x256 S399546x1 S399546x256 [1] [0] [] [0] [] 1 ![1, 256]
  dot_S399546x256_S256x256_S399546x256_1_0_0_1_n_n_wf : DotDims.WF S399546x256 S256x256 S399546x256 [1] [0] [0] [1] [] []
  scatter_S20000x256_S399546x1_S399546x256_1_0_0_1_wf : ScatterDims.WF S20000x256 S399546x1 S399546x256 [1] [0] [0] 1

variable [Facts₀]

def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000x256_S399546x1_S399546x256_1_0_n_n_0_1_1256 : GatherDims S20000x256 S399546x1 S399546x256 where
  offsetDims := [1]
  collapsedSliceDims := [0]
  operandBatchingDims := []
  startIndicesBatchingDims := []
  startIndexMap := [0]
  indexVectorDim := 1
  sliceSizes := ![1, 256]
  wf := gather_S20000x256_S399546x1_S399546x256_1_0_n_n_0_1_1256_wf
def dot_S399546x256_S256x256_S399546x256_1_0_0_1_n_n : DotDims S399546x256 S256x256 S399546x256 where
  lhsContracting := [1]
  rhsContracting := [0]
  lhsNonContracting := [0]
  rhsNonContracting := [1]
  lhsBatch := []
  rhsBatch := []
  wf := dot_S399546x256_S256x256_S399546x256_1_0_0_1_n_n_wf
def scatter_S20000x256_S399546x1_S399546x256_1_0_0_1 : ScatterDims S20000x256 S399546x1 S399546x256 where
  updateWindowDims := [1]
  insertedWindowDims := [0]
  scatterDimsToOperandDims := [0]
  indexVectorDim := 1
  wf := scatter_S20000x256_S399546x1_S399546x256_1_0_0_1_wf

class Facts : Prop extends Facts₀ where

variable [Facts]
-- ==== Proof.MlpBody.lean ====
/-
  The fused two-layer body at an index.

  One grid point of the first kernel holds a block of 4000 rows of the padded, gathered features, both weight
  matrices already transposed, and both biases as rows. What it stores at row `p`, lane `q` of its output block is

      (∑ k, max ((∑ j, x[p, j] · A[j, k]) + b[0, k]) 0 · C[k, q]) + d[0, q]:

  each matrix product starts from a zero accumulator, so it is the plain sum of products over the contracted axis;
  the narrowing of the operands to a 16-bit format is the identity on extended reals; the biases are rows broadcast
  down the block.
-/
import proofs.«148420_j20220706030438_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- A row `[1, b]` broadcast down to `[a, b]` reads, at `(r, c)`, the row's entry of lane `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

/-! ## The block's matrix product at an index: the sum over the 256 contracted coordinates -/

theorem lhs_blk_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs_blk_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs_blk_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs_blk_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A product of a `[4000, 256]` block with a `[256, 256]` matrix into a zero accumulator, at `(p, q)`: the sum over
    `k` of the block's row `p` times the matrix's column `q`. -/
theorem matmul_blk_apply {φ₁ φ₂ : FTy} (l : FVec Ideal S4000x256 φ₁) (r : FVec Ideal S256x256 φ₂) (p : Fin 4000) (q : Fin 256) :
    matmul dot_S4000x256_S256x256_S4000x256_1_0_0_1_n_n none l r (constant S4000x256 .f32 0x00000000#32) (ix2 p q)
      = ∑ k : Fin 256, l (ix2 p k) * r (ix2 k q) := by
  show FloatOps.matmul dot_S4000x256_S256x256_S4000x256_1_0_0_1_n_n none l r (constant S4000x256 .f32 0x00000000#32) (ix2 p q) = _
  rw [Ideal.matmul_constant_zero_apply, ← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-! ## The body's stored value at an index -/

/-- Two dense layers with a rectifier between them, for one row `x` of features, at output lane `q`: `A`, `C` the two
    weight matrices as the products take them (contracted axis first), `b`, `d` the biases as rows. -/
def mlpAt (x : Fin 256 → EReal) (A : S256x256.Idx → EReal) (b : S1x256.Idx → EReal) (C : S256x256.Idx → EReal)
    (d : S1x256.Idx → EReal) (q : Fin 256) : EReal :=
  (∑ k : Fin 256, max ((∑ j : Fin 256, x j * A (ix2 j k)) + b (ix2 (0 : Fin 1) k)) 0 * C (ix2 k q)) + d (ix2 (0 : Fin 1) q)

/-- The value the first kernel's body stores, at `(p, q)` of its block: the two layers applied to row `p` of the
    loaded feature block. -/
theorem pay_mlp_apply (v0 : Vec Ideal S4000x256 .f32) (v3 : Vec Ideal S256x256 .f32) (v7 : Vec Ideal S1x256 .f32)
    (v14 : Vec Ideal S256x256 .f32) (v18 : Vec Ideal S1x256 .f32) (p : Fin 4000) (q : Fin 256) :
    k0_pay1 (F := Ideal) v0 v3 v7 v14 v18 (ix2 p q) = mlpAt (fun j => v0 (ix2 p j)) v3 v7 v14 v18 q := by
  unfold k0_pay1 mlpAt
  simp only [shapeCast_self]
  rw [addf_apply, matmul_blk_apply, broadcastTo_1b_ab_apply]
  refine congrArg (· + _) (Finset.sum_congr rfl fun k _ => ?_)
  rw [truncf_apply, truncf_apply, maximumf_apply, addf_apply, matmul_blk_apply, broadcastTo_1b_ab_apply, broadcast_apply]
  have hz : FloatOps.ofBits (F := Ideal) .f32 0x00000000#32 = (0 : EReal) := Ideal.ofBits_zero_f32
  rw [hz]
  rfl

end Cert.KernelIdeal.Val

end
-- ==== Proof.MlpArray.lean ====
/-
  The first kernel's output array as one function of the arrays it is entered with.

  The kernel runs over 100 grid points; point `t` reads rows `4000·t … 4000·t + 3999` of the padded feature array and
  the whole of both weight matrices and both bias rows, and writes the same rows of the output. So the output array
  after the run holds, at `(r, q)`, the two layers applied to row `r` of the feature array: every block is the
  restriction of that one function, and the 100 blocks cover all 400000 rows (row `r` lies in block `r / 4000`).
-/
import proofs.«148420_j20220706030438_1_alg».proof.Proof.Gen.KernelIdeal.Frame
import proofs.«148420_j20220706030438_1_alg».proof.Proof.MlpBody

set_option maxRecDepth 16384

noncomputable section

namespace Cert.KernelIdeal.Val

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The two layers applied to every row of a `[400000, 256]` feature array. -/
def mlpG (X : S400000x256.Idx → EReal) (A : S256x256.Idx → EReal) (b : S1x256.Idx → EReal) (C : S256x256.Idx → EReal)
    (d : S1x256.Idx → EReal) : S400000x256.Idx → EReal :=
  fun i => mlpAt (fun j => X (ix2 (⟨(i 0).val, (i 0).isLt⟩ : Fin 400000) j)) A b C d (⟨(i 1).val, (i 1).isLt⟩ : Fin 256)

theorem mlpAt_congr {x x' : Fin 256 → EReal} {A : S256x256.Idx → EReal} {b : S1x256.Idx → EReal} {C : S256x256.Idx → EReal}
    {d : S1x256.Idx → EReal} {q q' : Fin 256} (hx : ∀ j, x j = x' j) (hq : q = q') :
    mlpAt x A b C d q = mlpAt x' A b C d q' := by
  subst hq; rw [show x = x' from funext hx]

/-- The block index maps over the grid: the feature and output windows move one block of rows per point, the weight
    and bias windows stay on their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks and the arrays, at their literal types -/

abbrev xblk (c : Dev nD) (t : Fin cfg0.N) : Vec Ideal S4000x256 .f32 := iblk0 V c 0 t
abbrev w1blk (c : Dev nD) (t : Fin cfg0.N) : Vec Ideal S256x256 .f32 := iblk0 V c 1 t
abbrev b1blk (c : Dev nD) (t : Fin cfg0.N) : Vec Ideal S1x256 .f32 := iblk0 V c 2 t
abbrev w2blk (c : Dev nD) (t : Fin cfg0.N) : Vec Ideal S256x256 .f32 := iblk0 V c 3 t
abbrev b2blk (c : Dev nD) (t : Fin cfg0.N) : Vec Ideal S1x256 .f32 := iblk0 V c 4 t
abbrev xarr (c : Dev nD) : Vec Ideal S400000x256 .f32 := V c main_v37
abbrev w1arr (c : Dev nD) : Vec Ideal S256x256 .f32 := V c main_v33
abbrev b1arr (c : Dev nD) : Vec Ideal S1x256 .f32 := V c main_v35
abbrev w2arr (c : Dev nD) : Vec Ideal S256x256 .f32 := V c main_v34
abbrev b2arr (c : Dev nD) : Vec Ideal S1x256 .f32 := V c main_v36

/-- Row `p` of point `t`'s feature block is row `4000·t + p` of the feature array. -/
theorem xblk_apply (c : Dev nD) (t : Fin cfg0.N) (p : Fin 4000) (j : Fin 256) (r : Fin 400000)
    (hr : r.val = t.val * 4000 + p.val) : xblk V c t (ix2 p j) = xarr V c (ix2 r j) := by
  obtain ⟨e0, e1, -⟩ := idx_facts0 t
  show V c main_v37 (((cfg0.win 0).blk t).view.emb (ix2 p j)) = V c main_v37 (ix2 r j)
  refine congrArg (V c main_v37) (funext fun a => Fin.ext ?_)
  match a with
  | ⟨0, _⟩ => show win0_0.index t (0 : Fin 2) * 4000 + 1 * p.val = r.val; omega
  | ⟨1, _⟩ => show win0_0.index t (1 : Fin 2) * 256 + 1 * j.val = j.val; omega

theorem w1blk_eq (c : Dev nD) (t : Fin cfg0.N) : w1blk V c t = w1arr V c := by
  obtain ⟨-, -, e0, e1, -⟩ := idx_facts0 t
  funext y
  show V c main_v33 (((cfg0.win 1).blk t).view.emb y) = V c main_v33 y
  refine congrArg (V c main_v33) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem b1blk_eq (c : Dev nD) (t : Fin cfg0.N) : b1blk V c t = b1arr V c := by
  obtain ⟨-, -, -, -, e0, e1, -⟩ := idx_facts0 t
  funext y
  show V c main_v35 (((cfg0.win 2).blk t).view.emb y) = V c main_v35 y
  refine congrArg (V c main_v35) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem w2blk_eq (c : Dev nD) (t : Fin cfg0.N) : w2blk V c t = w2arr V c := by
  obtain ⟨-, -, -, -, -, -, e0, e1, -⟩ := idx_facts0 t
  funext y
  show V c main_v34 (((cfg0.win 3).blk t).view.emb y) = V c main_v34 y
  refine congrArg (V c main_v34) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem b2blk_eq (c : Dev nD) (t : Fin cfg0.N) : b2blk V c t = b2arr V c := by
  obtain ⟨-, -, -, -, -, -, -, -, e0, e1, -⟩ := idx_facts0 t
  funext y
  show V c main_v36 (((cfg0.win 4).blk t).view.emb y) = V c main_v36 y
  refine congrArg (V c main_v36) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- What point `t` writes back is block `t` of the two layers applied to the feature array. -/
theorem flushed0_eq (c : Dev nD) (t : Fin cfg0.N) :
    (dat0 V c).flushed 5 t
      = ((cfg0.win 5).blk t).view.read (Elt Ideal) (mlpG (xarr V c) (w1arr V c) (b1arr V c) (w2arr V c) (b2arr V c)) := by
  show (cfg0.win 5).cut (grid0.coords t) ((dat0 V c).after 5 t) = _
  rw [after0_5]
  unfold out0_5
  rw [View.canon_unit_zero zero_offsets]
  simp only [View.ld_unit_zero (S := S4000x256) zero_offsets, View.ld_unit_zero (S := S256x256) zero_offsets,
    View.ld_unit_zero (S := S1x256) zero_offsets]
  obtain ⟨-, -, -, -, -, -, -, -, -, -, e10, e11⟩ := idx_facts0 t
  funext y
  show k0_pay1 (F := Ideal) (xblk V c t) (w1blk V c t) (b1blk V c t) (w2blk V c t) (b2blk V c t) y
    = mlpG (xarr V c) (w1arr V c) (b1arr V c) (w2arr V c) (b2arr V c) (((cfg0.win 5).blk t).view.emb y)
  obtain ⟨p, q, rfl⟩ : ∃ (p : Fin 4000) (q : Fin 256), y = ix2 p q := ⟨y 0, y 1, eq_ix2 y⟩
  rw [pay_mlp_apply, w1blk_eq, b1blk_eq, w2blk_eq, b2blk_eq]
  unfold mlpG
  refine mlpAt_congr (fun j => xblk_apply V c t p j _ ?_) (Fin.ext ?_)
  · show win0_5.index t (0 : Fin 2) * 4000 + 1 * p.val = t.val * 4000 + p.val; omega
  · show q.val = win0_5.index t (1 : Fin 2) * 256 + 1 * q.val; omega

/-- An index of the output array is in point `t`'s block iff each coordinate is in the block's range on its axis. -/
theorem mem_blk0 (t : Fin cfg0.N) (i : S400000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v38).slice (win0_5.rect t)).set ↔ _
  rw [View.set_slice_whole, Rect.mem_set_unit]
  exact Iff.rfl

/-- Every index of the output array lies in some point's block: row `r` in block `r / 4000`. -/
theorem cover0 (i : S400000x256.Idx) : ∃ t : Fin cfg0.N, (cfg0.win 5).flush t = true ∧ i ∈ ((cfg0.win 5).blk t).view.set := by
  have hi0 : (i 0).val < 400000 := (i 0).isLt
  have hi1 : (i 1).val < 256 := (i 1).isLt
  have hN : cfg0.N = 100 := N_0
  have ht : (i 0).val / 4000 < cfg0.N := by rw [hN]; omega
  obtain ⟨-, -, -, -, -, -, -, -, -, -, e10, e11⟩ := idx_facts0 ⟨(i 0).val / 4000, ht⟩
  have e10' : win0_5.index ⟨(i 0).val / 4000, ht⟩ (0 : Fin 2) = (i 0).val / 4000 := e10
  refine ⟨⟨(i 0).val / 4000, ht⟩, flush0_5 _, ?_⟩
  rw [mem_blk0]
  intro a
  match a with
  | ⟨0, _⟩ => show win0_5.index ⟨(i 0).val / 4000, ht⟩ (0 : Fin 2) * 4000 ≤ (i 0).val ∧ (i 0).val < win0_5.index ⟨(i 0).val / 4000, ht⟩ (0 : Fin 2) * 4000 + 4000; omega
  | ⟨1, _⟩ => show win0_5.index ⟨(i 0).val / 4000, ht⟩ (1 : Fin 2) * 256 ≤ (i 1).val ∧ (i 1).val < win0_5.index ⟨(i 0).val / 4000, ht⟩ (1 : Fin 2) * 256 + 256; omega

/-- The output array after the run: the two layers applied to every row of the feature array the region is entered
    with. -/
theorem final0 (c : Dev nD) :
    (dat0 V c).arrAt 5 cfg0.N = mlpG (xarr V c) (w1arr V c) (b1arr V c) (w2arr V c) (b2arr V c) :=
  (dat0 V c).arrAt_eq_of_cover 5 _ (fun t _ => flushed0_eq V c t) cover0

end Cert.KernelIdeal.Val

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.NormBody.lean ====
/-
  The row norm at an index.

  One grid point of the second kernel holds a block of 2000 rows of the updated features. What it stores at row
  `r` of its one-lane output block is the square root of the sum, over the row's 256 entries, of the entry times
  itself: the lane sum starts from zero, its result is recast as a column, and the root is taken entry by entry.
-/
import proofs.«148420_j20220706030438_1_alg».proof.Proof.Gen.KernelIdeal.Skeleton
import proofs.«148420_j20220706030438_1_alg».proof.Proof.LibColumns

noncomputable section

namespace Cert.KernelIdeal.Val

open Idealize.ShloMosaic Idealize.ShloMosaic.ValueIdx Cert.KernelIdeal Cert.KernelIdeal.Gen

/-- The Euclidean norm of one row of 256 entries, on the extended reals. -/
def normAt (x : Fin 256 → EReal) : EReal := Ideal.sqrt (∑ k : Fin 256, x k * x k)

/-- The value the second kernel's body stores, at `(r, u)` of its block: the norm of row `r` of the loaded block. -/
theorem pay_norm_apply (v0 : Vec Ideal S2000x256 .f32) (r : Fin 2000) (u : Fin 1) :
    k1_pay1 (F := Ideal) v0 (ix2 r u) = normAt (fun k => v0 (ix2 r k)) := by
  unfold k1_pay1 normAt
  simp only [shapeCast_self]
  rw [show ∀ (x : FVec Ideal S2000x1 .f32) (i : S2000x1.Idx), sqrt x i = Ideal.sqrt (x i) from fun _ _ => rfl]
  rw [Cert.LibColumns.shapeCast_a_a1_apply]
  refine congrArg Ideal.sqrt ?_
  exact Cert.LibColumns.rowSum_apply (a := 2000) (b := 256) (mulf v0 v0) _ _ _ _ r

end Cert.KernelIdeal.Val

end
-- ==== Proof.NormArray.lean ====
/-
  The second kernel's output array as one function of the array it is entered with.

  The kernel runs over 10 grid points; point `t` reads rows `2000·t … 2000·t + 1999` of the updated feature array
  and writes the same rows of the one-lane output. So the output after the run holds, at `(r, 0)`, the norm of row
  `r`: every block is the restriction of that one function, and the 10 blocks cover all 20000 rows (row `r` lies in
  block `r / 2000`).
-/
import proofs.«148420_j20220706030438_1_alg».proof.Proof.Gen.KernelIdeal.Frame
import proofs.«148420_j20220706030438_1_alg».proof.Proof.NormBody

set_option maxRecDepth 16384

noncomputable section

namespace Cert.KernelIdeal.Val

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem zero_offsets1 : (![0, 0] : Fin 2 → Nat) = fun _ => 0 := funext fun a => by fin_cases a <;> rfl

/-- The norm of every row of a `[20000, 256]` array, as a column. -/
def normG (X : S20000x256.Idx → EReal) : S20000x1.Idx → EReal :=
  fun i => normAt (fun k => X (ix2 (⟨(i 0).val, (i 0).isLt⟩ : Fin 20000) k))

/-- The block index maps over the grid: both windows move one block of rows per point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

abbrev ublk (c : Dev nD) (t : Fin cfg1.N) : Vec Ideal S2000x256 .f32 := iblk1 V c 0 t
abbrev uarr (c : Dev nD) : Vec Ideal S20000x256 .f32 := V c main_v45

/-- Row `p` of point `t`'s block is row `2000·t + p` of the array. -/
theorem ublk_apply (c : Dev nD) (t : Fin cfg1.N) (p : Fin 2000) (j : Fin 256) (r : Fin 20000)
    (hr : r.val = t.val * 2000 + p.val) : ublk V c t (ix2 p j) = uarr V c (ix2 r j) := by
  obtain ⟨e0, e1, -⟩ := idx_facts1 t
  show V c main_v45 (((cfg1.win 0).blk t).view.emb (ix2 p j)) = V c main_v45 (ix2 r j)
  refine congrArg (V c main_v45) (funext fun a => Fin.ext ?_)
  match a with
  | ⟨0, _⟩ => show win1_0.index t (0 : Fin 2) * 2000 + 1 * p.val = r.val; omega
  | ⟨1, _⟩ => show win1_0.index t (1 : Fin 2) * 256 + 1 * j.val = j.val; omega

/-- What point `t` writes back is block `t` of the row norms of the array. -/
theorem flushed1_eq (c : Dev nD) (t : Fin cfg1.N) :
    (dat1 V c).flushed 1 t = ((cfg1.win 1).blk t).view.read (Elt Ideal) (normG (uarr V c)) := by
  show (cfg1.win 1).cut (grid1.coords t) ((dat1 V c).after 1 t) = _
  rw [after1_1]
  unfold out1_1
  rw [View.canon_unit_zero zero_offsets1]
  simp only [View.ld_unit_zero (S := S2000x256) zero_offsets1]
  obtain ⟨-, -, e2, e3⟩ := idx_facts1 t
  funext y
  show k1_pay1 (F := Ideal) (ublk V c t) y = normG (uarr V c) (((cfg1.win 1).blk t).view.emb y)
  obtain ⟨p, u, rfl⟩ : ∃ (p : Fin 2000) (u : Fin 1), y = ix2 p u := ⟨y 0, y 1, eq_ix2 y⟩
  rw [pay_norm_apply]
  unfold normG
  refine congrArg normAt (funext fun k => ublk_apply V c t p k _ ?_)
  show win1_1.index t (0 : Fin 2) * 2000 + 1 * p.val = t.val * 2000 + p.val; omega

/-- An index of the output array is in point `t`'s block iff each coordinate is in the block's range on its axis. -/
theorem mem_blk1 (t : Fin cfg1.N) (i : S20000x1.Idx) :
    i ∈ ((cfg1.win 1).blk t).view.set ↔ ∀ a : Fin 2, win1_1.index t a * S2000x1.size a ≤ (i a).val ∧ (i a).val < win1_1.index t a * S2000x1.size a + S2000x1.size a := by
  show i ∈ ((View.whole main_v46).slice (win1_1.rect t)).set ↔ _
  rw [View.set_slice_whole, Rect.mem_set_unit]
  exact Iff.rfl

/-- Every index of the output array lies in some point's block: row `r` in block `r / 2000`. -/
theorem cover1 (i : S20000x1.Idx) : ∃ t : Fin cfg1.N, (cfg1.win 1).flush t = true ∧ i ∈ ((cfg1.win 1).blk t).view.set := by
  have hi0 : (i 0).val < 20000 := (i 0).isLt
  have hi1 : (i 1).val < 1 := (i 1).isLt
  have hN : cfg1.N = 10 := N_1
  have ht : (i 0).val / 2000 < cfg1.N := by rw [hN]; omega
  obtain ⟨-, -, e2, e3⟩ := idx_facts1 ⟨(i 0).val / 2000, ht⟩
  have e2' : win1_1.index ⟨(i 0).val / 2000, ht⟩ (0 : Fin 2) = (i 0).val / 2000 := e2
  refine ⟨⟨(i 0).val / 2000, ht⟩, flush1_1 _, ?_⟩
  rw [mem_blk1]
  intro a
  match a with
  | ⟨0, _⟩ => show win1_1.index ⟨(i 0).val / 2000, ht⟩ (0 : Fin 2) * 2000 ≤ (i 0).val ∧ (i 0).val < win1_1.index ⟨(i 0).val / 2000, ht⟩ (0 : Fin 2) * 2000 + 2000; omega
  | ⟨1, _⟩ => show win1_1.index ⟨(i 0).val / 2000, ht⟩ (1 : Fin 2) * 1 ≤ (i 1).val ∧ (i 1).val < win1_1.index ⟨(i 0).val / 2000, ht⟩ (1 : Fin 2) * 1 + 1; omega

/-- The output array after the run: the row norms of the array the region is entered with. -/
theorem final1 (c : Dev nD) : (dat1 V c).arrAt 1 cfg1.N = normG (uarr V c) :=
  (dat1 V c).arrAt_eq_of_cover 1 _ (fun t _ => flushed1_eq V c t) cover1

end Cert.KernelIdeal.Val

end
-- ==== Proof.RefMsg.lean ====
/-
  The reference's messages at an index.

  The reference computes the message of dual edge `r` as two dense layers with a rectifier between them, as whole-array
  products: `(max (F·W₁ᵀ + b₁) 0)·W₂ᵀ + b₂`, `F` the gathered feature rows. Read at `(r, q)`, each product is a sum
  over the 256 contracted coordinates and each bias is the vector's entry of that lane, so the entry is the two layers
  applied to row `r` of `F`, at lane `q` — with the biases written as `[1, 256]` rows, which is how the kernel holds them.
-/
import proofs.«148420_j20220706030438_1_alg».proof.Proof.Gen.ReferenceIdeal.Read
import proofs.«148420_j20220706030438_1_alg».proof.Proof.MlpBody

set_option maxRecDepth 16384

noncomputable section

namespace Cert.Bridge

open Idealize.ShloMosaic Idealize.ShloMosaic.ValueIdx
open Cert.ReferenceIdeal Cert.ReferenceIdeal.Read

/-- A vector `[b]` recast as the row `[1, b]` reads, at `(u, c)`, the vector at `c`, whatever the unit coordinate. -/
theorem shapeCast_b_1b_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

theorem add_congr {a a' b b' : EReal} (h1 : a = a') (h2 : b = b') : a + b = a' + b' := by rw [h1, h2]
theorem mul_congr_left {a a' b : EReal} (h : a = a') : a * b = a' * b := by rw [h]
theorem max_congr {a a' b b' : EReal} (h1 : a = a') (h2 : b = b') : max a b = max a' b' := by rw [h1, h2]

/-- The reference's message array at `(r, q)`: the two layers applied to row `r` of the gathered features. -/
theorem ref_msg_apply (x0 : (⟨S100000x256, .f32⟩ : BufTy).Contents (Elt Ideal)) (x1 : (⟨S2x200000, .i32⟩ : BufTy).Contents (Elt Ideal))
    (x3 : (⟨S2x399546, .i32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (hrow : Cert.KernelIdeal.S256.ShapeCasts Cert.KernelIdeal.S1x256)
    (r : Fin 399546) (q : Fin 256) :
    val_main_v43 (F := Ideal) x0 x1 x3 x4 x5 x6 x7 (ix2 r q)
      = Cert.KernelIdeal.Val.mlpAt (fun j => val_main_v32 (F := Ideal) x0 x1 x3 (ix2 r j)) (val_main_v33 (F := Ideal) x4)
          (shapeCast Cert.KernelIdeal.S1x256 x5 hrow) (val_main_v39 (F := Ideal) x6)
          (shapeCast Cert.KernelIdeal.S1x256 x7 hrow) q := by
  unfold Cert.KernelIdeal.Val.mlpAt
  rw [val_main_v43_apply, val_main_v40_apply, val_main_v42_apply, val_main_v41_apply, Ideal.addf_def]
  refine add_congr (Finset.sum_congr rfl fun k _ => ?_) ?_
  · have e1 : lidx_main_v40 (ix2 r q) k = ix2 r k := funext fun a => Fin.ext (by match a with | ⟨0, _⟩ => rfl | ⟨1, _⟩ => rfl)
    have e2 : ridx_main_v40 (ix2 r q) k = ix2 k q := funext fun a => Fin.ext (by match a with | ⟨0, _⟩ => rfl | ⟨1, _⟩ => rfl)
    rw [e1, e2, val_main_v38_apply, val_main_v37_apply, val_main_v34_apply, val_main_v36_apply, val_main_v35_apply,
      val_main_call1_v0_apply, val_main_call1_cst_apply, Ideal.maximumf_def, Ideal.addf_def]
    refine mul_congr_left ?_
    refine max_congr (add_congr (Finset.sum_congr rfl fun j _ => ?_) ?_) Ideal.ofBits_zero_f32
    · have e3 : lidx_main_v34 (ix2 r k) j = ix2 r j := funext fun a => Fin.ext (by match a with | ⟨0, _⟩ => rfl | ⟨1, _⟩ => rfl)
      have e4 : ridx_main_v34 (ix2 r k) j = ix2 j k := funext fun a => Fin.ext (by match a with | ⟨0, _⟩ => rfl | ⟨1, _⟩ => rfl)
      rw [e3, e4]
    · rw [shapeCast_b_1b_apply]
      exact congrArg x5 (funext fun a => Fin.ext (by match a with | ⟨0, _⟩ => rfl))
  · rw [shapeCast_b_1b_apply]
    exact congrArg x7 (funext fun a => Fin.ext (by match a with | ⟨0, _⟩ => rfl))

end Cert.Bridge

end
-- ==== Proof.RefNorm.lean ====
/-
  The reference's row norms at an index.

  The reference takes the norm of every row of the updated features as a whole-array computation: the entrywise
  square, the sum along each row from a zero initial value, the square root. Read at row `r` this is the root of the
  sum over the row's 256 entries of the entry times itself — the function the second kernel's body stores.
-/
import proofs.«148420_j20220706030438_1_alg».proof.Proof.Gen.ReferenceIdeal.Read
import proofs.«148420_j20220706030438_1_alg».proof.Proof.NormBody

set_option maxRecDepth 16384

noncomputable section

namespace Cert.Bridge

open Idealize.ShloMosaic Idealize.ShloMosaic.ValueIdx
open Cert.ReferenceIdeal Cert.ReferenceIdeal.Read

/-- A column `[a, 1]` recast as the vector `[a]` reads, at `r`, the column's entry of row `r`. -/
theorem shapeCast_a1_a_apply {α : Type} {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

theorem sqrt_congr {a b : EReal} (h : a = b) : Ideal.sqrt a = Ideal.sqrt b := by rw [h]

/-- The reference's norm vector at `r`: the norm of row `r` of the updated features. -/
theorem ref_norm_apply (x0 : (⟨S100000x256, .f32⟩ : BufTy).Contents (Elt Ideal)) (x1 : (⟨S2x200000, .i32⟩ : BufTy).Contents (Elt Ideal))
    (x3 : (⟨S2x399546, .i32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (r : Fin 20000) :
    val_main_v50 (F := Ideal) x0 x1 x3 x4 x5 x6 x7 (ix1 r)
      = Cert.KernelIdeal.Val.normAt (fun k => val_main_v49 (F := Ideal) x0 x1 x3 x4 x5 x6 x7 (ix2 r k)) := by
  unfold Cert.KernelIdeal.Val.normAt
  rw [val_main_v50_apply, val_main_call2_v1_apply, val_main_call2_cst_apply]
  have hz : FloatOps.ofBits (F := Ideal) .f32 0x00000000#32 = (0 : EReal) := Ideal.ofBits_zero_f32
  rw [hz, zero_add, Ideal.hostUnary_sqrt_def]
  refine sqrt_congr (Finset.sum_congr rfl fun k _ => ?_)
  have e : idx_main_call2_v1 (ix1 r) k = ix2 r k := funext fun a => Fin.ext (by match a with | ⟨0, _⟩ => rfl | ⟨1, _⟩ => rfl)
  rw [e, val_main_call2_v0_apply]
  rfl

end Cert.Bridge

end
-- ==== Proof.KernelValue.lean ====
/-
  The kernel program's result as a function of its arguments, and that it is the reference's.

  The program's memory after each stretch of host operations and each kernel region is read back from the launch
  memory: the host operations before the first kernel are the reference's own (the hyperedge mean features, the source
  and destination lists of the dual edges, the gathered feature rows, the transposed weights), then the gathered rows
  padded with 454 zero rows and the biases recast as rows; the first kernel's output is the two layers applied to
  every padded row; the host slices the 454 padding rows away, scatter-adds the messages to the destination hyperedges
  and adds a tenth of that to the features; the second kernel's output is the norm of every row; the tail divides by
  the largest norm and maps to `0.9 · w + 0.1`.

  Against the reference only two stretches differ in form. The sliced kernel messages are the reference's messages:
  at `(r, q)`, `r` below 399546, the padded array's row `r` is the gathered row `r`, and both sides are the two layers
  of that row. The kernel's norms, recast as a vector, are the reference's: at `r` both are the norm of row `r` of
  the same updated features. Everything else is the same chain of host operations applied to equal values.
-/
import proofs.«148420_j20220706030438_1_alg».proof.Proof.KernelRun
import proofs.«148420_j20220706030438_1_alg».proof.Proof.MlpArray
import proofs.«148420_j20220706030438_1_alg».proof.Proof.NormArray
import proofs.«148420_j20220706030438_1_alg».proof.Proof.RefMsg
import proofs.«148420_j20220706030438_1_alg».proof.Proof.RefNorm
import Idealize.ShloMosaic.Lib.KernelVsHost

set_option maxRecDepth 16384

noncomputable section

namespace Cert.KernelIdeal.Val

open Idealize.ShloMosaic Idealize.ShloMosaic.ValueIdx Idealize.ShloMosaic.TcCoe Idealize.SL.Sem Idealize.ShloMosaic.StableHlo
open Cert.KernelIdeal Cert.KernelIdeal.Gen
open Cert.ReferenceIdeal.Read (val_main_v21 val_main_v25 val_main_v32 val_main_v33 val_main_v39 val_main_v43 val_main_v49
  val_main_v50 val_main_v57)

variable (m : (ℓ : Loc nD τ sig) → Buf (Elt Ideal) ℓ) (ρ : Dev nD → PrngReg)

/-! ## The host operations before the first kernel: the reference's own, then the padding and the bias rows -/

theorem W4_v21 (c : Dev nD) : W4 m ρ c (Proc.devRef .tc main_v21)
    = val_main_v21 (F := Ideal) (m ((c : Thread nD τ).loc main_arg0)) (m ((c : Thread nD τ).loc main_arg1)) := by
  show StableHlo.after hostOps0_3 (StableHlo.after hostOps0_2 (StableHlo.after hostOps0_1 (StableHlo.after hostOps0 (W0 m ρ c)))) (Proc.devRef .tc main_v21) = _
  after_results_simp
  rfl

theorem W4_v25 (c : Dev nD) : W4 m ρ c (Proc.devRef .tc main_v25)
    = val_main_v25 (F := Ideal) (m ((c : Thread nD τ).loc main_arg3)) := by
  show StableHlo.after hostOps0_3 (StableHlo.after hostOps0_2 (StableHlo.after hostOps0_1 (StableHlo.after hostOps0 (W0 m ρ c)))) (Proc.devRef .tc main_v25) = _
  after_results_simp
  rfl

theorem W4_v33 (c : Dev nD) : W4 m ρ c (Proc.devRef .tc main_v33)
    = val_main_v33 (F := Ideal) (m ((c : Thread nD τ).loc main_arg4)) := by
  show StableHlo.after hostOps0_3 (StableHlo.after hostOps0_2 (StableHlo.after hostOps0_1 (StableHlo.after hostOps0 (W0 m ρ c)))) (Proc.devRef .tc main_v33) = _
  after_results_simp
  rfl

theorem W4_v34 (c : Dev nD) : W4 m ρ c (Proc.devRef .tc main_v34)
    = val_main_v39 (F := Ideal) (m ((c : Thread nD τ).loc main_arg6)) := by
  show StableHlo.after hostOps0_3 (StableHlo.after hostOps0_2 (StableHlo.after hostOps0_1 (StableHlo.after hostOps0 (W0 m ρ c)))) (Proc.devRef .tc main_v34) = _
  after_results_simp
  rfl

theorem W4_v35 (c : Dev nD) : W4 m ρ c (Proc.devRef .tc main_v35)
    = shapeCast S1x256 (m ((c : Thread nD τ).loc main_arg5)) shapeCasts_S256_S1x256 := by
  show StableHlo.after hostOps0_3 (StableHlo.after hostOps0_2 (StableHlo.after hostOps0_1 (StableHlo.after hostOps0 (W0 m ρ c)))) (Proc.devRef .tc main_v35) = _
  after_results_simp
  rfl

theorem W4_v36 (c : Dev nD) : W4 m ρ c (Proc.devRef .tc main_v36)
    = shapeCast S1x256 (m ((c : Thread nD τ).loc main_arg7)) shapeCasts_S256_S1x256 := by
  show StableHlo.after hostOps0_3 (StableHlo.after hostOps0_2 (StableHlo.after hostOps0_1 (StableHlo.after hostOps0 (W0 m ρ c)))) (Proc.devRef .tc main_v36) = _
  after_results_simp
  rfl

theorem W4_v37 (c : Dev nD) : W4 m ρ c (Proc.devRef .tc main_v37)
    = pad S400000x256 ![0, 0] ![454, 0] ![0, 0]
        (val_main_v32 (F := Ideal) (m ((c : Thread nD τ).loc main_arg0)) (m ((c : Thread nD τ).loc main_arg1)) (m ((c : Thread nD τ).loc main_arg3)))
        (sitofp (F := Ideal) .f32 (constantI S_ 32 0#32)) pads_S399546x256_S400000x256_04540_000 h_S_ := by
  show StableHlo.after hostOps0_3 (StableHlo.after hostOps0_2 (StableHlo.after hostOps0_1 (StableHlo.after hostOps0 (W0 m ρ c)))) (Proc.devRef .tc main_v37) = _
  after_results_simp
  rfl

/-! ## The first kernel's output, and what the region leaves alone -/

theorem W5_v38 (c : Dev nD) : W5 m ρ c (Proc.devRef .tc main_v38)
    = mlpG (W4 m ρ c (Proc.devRef .tc main_v37)) (W4 m ρ c (Proc.devRef .tc main_v33)) (W4 m ρ c (Proc.devRef .tc main_v35))
        (W4 m ρ c (Proc.devRef .tc main_v34)) (W4 m ρ c (Proc.devRef .tc main_v36)) :=
  (W5_arr m ρ c 5).trans (final0 (V4 m ρ) c)

theorem W5_v21 (c : Dev nD) : W5 m ρ c (Proc.devRef .tc main_v21) = W4 m ρ c (Proc.devRef .tc main_v21) :=
  W5_of_ne m ρ c main_v21 (by decide)

theorem W5_v25 (c : Dev nD) : W5 m ρ c (Proc.devRef .tc main_v25) = W4 m ρ c (Proc.devRef .tc main_v25) :=
  W5_of_ne m ρ c main_v25 (by decide)

/-! ## The host operations between the kernels: slice, scatter-add, scale, add -/

/-- The updated features from the features `f`, the destination list `d` and the padded message array `g`. -/
def updK (f : S20000x256.Idx → EReal) (d : S399546.Idx → BitVec 32) (g : S400000x256.Idx → EReal) : S20000x256.Idx → EReal :=
  addf (F := Ideal) f (mulf (F := Ideal) (broadcastInDim S20000x256 ![] bcast_S_S20000x256 (constant (F := Ideal) S_ .f32 0x3DCCCCCD#32))
    (Host.scatterAdd (F := Ideal) scatter_S20000x256_S399546x1_S399546x256_1_0_0_1
      (broadcastInDim S20000x256 ![] bcast_S_S20000x256 (constant (F := Ideal) S_ .f32 0x00000000#32))
      (broadcastInDim S399546x1 ![0] bcast_S399546_S399546x1_0 d)
      (extractStridedSlice S399546x256 ![0, 0] g slices_S400000x256_S399546x256_0_0)))

theorem upd_after (W : Valuation τ sig (Elt Ideal)) :
    StableHlo.after hostOps1 W (Proc.devRef .tc main_v45)
      = updK (W (Proc.devRef .tc main_v21)) (W (Proc.devRef .tc main_v25)) (W (Proc.devRef .tc main_v38)) := by
  after_results
  rfl

/-! ## The second kernel's output -/

theorem W7_v46 (c : Dev nD) : W7 m ρ c (Proc.devRef .tc main_v46) = normG (W6 m ρ c (Proc.devRef .tc main_v45)) :=
  (W7_arr m ρ c 1).trans (final1 (V6 m ρ) c)

/-! ## The host operations after the second kernel: recast, divide by the maximum, scale, shift -/

/-- The result from the column `n` of norms. -/
def tailK (n : S20000x1.Idx → EReal) : S20000.Idx → EReal :=
  addf (F := Ideal) (mulf (F := Ideal) (Host.divf (F := Ideal) (shapeCast S20000 n shapeCasts_S20000x1_S20000)
      (broadcastInDim S20000 ![] bcast_S_S20000
        (Host.reduce FloatOps.maximumf (shapeCast S20000 n shapeCasts_S20000x1_S20000) (constant (F := Ideal) S_ .f32 0xFF800000#32) reducesTo_S20000_S_d0 h_S_)))
      (broadcastInDim S20000 ![] bcast_S_S20000 (constant (F := Ideal) S_ .f32 0x3F666666#32)))
    (broadcastInDim S20000 ![] bcast_S_S20000 (constant (F := Ideal) S_ .f32 0x3DCCCCCD#32))

theorem tail_after (W : Valuation τ sig (Elt Ideal)) :
    StableHlo.after hostOps2 W (Proc.devRef .tc main_v54) = tailK (W (Proc.devRef .tc main_v46)) := by
  after_results
  rfl

/-! ## The two stretches that differ in form from the reference -/

/-- The kernel's messages, the padding rows sliced away, are the reference's messages. -/
theorem msg_bridge (x0 : (⟨S100000x256, .f32⟩ : BufTy).Contents (Elt Ideal)) (x1 : (⟨S2x200000, .i32⟩ : BufTy).Contents (Elt Ideal))
    (x3 : (⟨S2x399546, .i32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) :
    extractStridedSlice S399546x256 ![0, 0]
        (mlpG (pad S400000x256 ![0, 0] ![454, 0] ![0, 0] (val_main_v32 (F := Ideal) x0 x1 x3) (sitofp (F := Ideal) .f32 (constantI S_ 32 0#32))
            pads_S399546x256_S400000x256_04540_000 h_S_)
          (val_main_v33 (F := Ideal) x4) (shapeCast S1x256 x5 shapeCasts_S256_S1x256) (val_main_v39 (F := Ideal) x6)
          (shapeCast S1x256 x7 shapeCasts_S256_S1x256))
        slices_S400000x256_S399546x256_0_0
      = val_main_v43 (F := Ideal) x0 x1 x3 x4 x5 x6 x7 := by
  funext i
  obtain ⟨r, q, rfl⟩ : ∃ (r : Fin 399546) (q : Fin 256), i = ix2 r q := ⟨i 0, i 1, eq_ix2 i⟩
  have hr : r.val < 400000 := by have := r.isLt; omega
  rw [Cert.Bridge.ref_msg_apply x0 x1 x3 x4 x5 x6 x7 shapeCasts_S256_S1x256 r q]
  rw [extractStridedSlice_apply ![0, 0] _ slices_S400000x256_S399546x256_0_0 (ix2 r q) (ix2 (⟨r.val, hr⟩ : Fin 400000) q)
    (fun a => by
      match a with
      | ⟨0, _⟩ => show r.val = 0 + r.val; omega
      | ⟨1, _⟩ => show q.val = 0 + q.val; omega)]
  unfold mlpG
  refine mlpAt_congr (fun j => ?_) (Fin.ext rfl)
  refine pad_apply_of_inside ![0, 0] ![454, 0] ![0, 0] _ _ pads_S399546x256_S400000x256_04540_000 h_S_ _ (ix2 r j) (fun a => ?_)
  match a with
  | ⟨0, _⟩ => show r.val = 0 + r.val * (0 + 1); omega
  | ⟨1, _⟩ => show j.val = 0 + j.val * (0 + 1); omega

/-- The kernel's norms, recast as a vector, are the reference's norms. -/
theorem norm_bridge (x0 : (⟨S100000x256, .f32⟩ : BufTy).Contents (Elt Ideal)) (x1 : (⟨S2x200000, .i32⟩ : BufTy).Contents (Elt Ideal))
    (x3 : (⟨S2x399546, .i32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) :
    shapeCast S20000 (normG (val_main_v49 (F := Ideal) x0 x1 x3 x4 x5 x6 x7)) shapeCasts_S20000x1_S20000
      = val_main_v50 (F := Ideal) x0 x1 x3 x4 x5 x6 x7 := by
  funext i
  obtain ⟨r, rfl⟩ : ∃ r : Fin 20000, i = ix1 r := ⟨i 0, eq_ix1 i⟩
  rw [Cert.Bridge.ref_norm_apply, Cert.Bridge.shapeCast_a1_a_apply]
  rfl

/-! ## The result -/

/-- The updated features the second kernel is entered with are the reference's. -/
theorem W6_v45 (c : Dev nD) : W6 m ρ c (Proc.devRef .tc main_v45)
    = val_main_v49 (F := Ideal) (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (upd_after (W5 m ρ c)).trans ?_
  rw [W5_v21, W5_v25, W5_v38, W4_v21, W4_v25, W4_v33, W4_v34, W4_v35, W4_v36, W4_v37]
  unfold updK
  rw [msg_bridge]
  rfl

/-- The program's result buffer at the last boundary is the reference's result of the same arguments. -/
theorem result (c : Dev nD) : W8 m ρ c (Proc.devRef .tc main_v54)
    = val_main_v57 (F := Ideal) (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (tail_after (W7 m ρ c)).trans ?_
  rw [W7_v46, W6_v45]
  unfold tailK
  rw [norm_bridge]
  rfl

end Cert.KernelIdeal.Val

end
-- ==== Proof.lean ====
/-
  A hypergraph layer that lets hyperedges exchange messages, and ends in one weight per hyperedge.

  Both programs pool node features into hyperedge features (a gather along the node list, a scatter-add along the
  hyperedge list, a division by the member count clipped below at one), pass every dual edge's source features
  through two dense layers with a rectifier between them, scatter-add the messages to the destination hyperedges, add
  a tenth of that to the features, take each row's Euclidean norm, divide by the largest norm and map to
  `0.9 · w + 0.1`.

  The kernel program does the two dense layers in one tiled kernel over the gathered rows padded to 400000 rows —
  each block of 4000 rows against the whole transposed weights, every product from a zero accumulator — and the row
  norms in a second tiled kernel over blocks of 2000 rows; the reference does both as whole-array operations. On the
  extended reals a product into a zero accumulator is the plain sum of products, the narrowing of the operands to a
  16-bit format is the identity, and a sum does not depend on its tiling, so the padded rows, sliced away again, leave
  the reference's messages, and the blockwise norms are the reference's norms. Every other stretch is the same chain
  of host operations on both sides, applied to equal values, so the two results are equal entry by entry; no step
  needs the inputs to be finite.

  The three frame claims are the generated frames (the reference's: its generated run with the result dropped); the
  idealization rewrote nothing, so `preserves` has nothing to state.
-/
import proofs.«148420_j20220706030438_1_alg».proof.Defs
import proofs.«148420_j20220706030438_1_alg».proof.Proof.Gen.Kernel
import proofs.«148420_j20220706030438_1_alg».proof.Proof.Gen.Kernel.Frame
import proofs.«148420_j20220706030438_1_alg».proof.Proof.Gen.KernelIdeal
import proofs.«148420_j20220706030438_1_alg».proof.Proof.Gen.KernelIdeal.Frame
import proofs.«148420_j20220706030438_1_alg».proof.Proof.Gen.ReferenceIdeal
import proofs.«148420_j20220706030438_1_alg».proof.Proof.Gen.ReferenceIdeal.Run
import proofs.«148420_j20220706030438_1_alg».proof.Proof.Gen.ReferenceIdeal.Read
import proofs.«148420_j20220706030438_1_alg».proof.Proof.Gen.Pre_finite_inputs
import proofs.«148420_j20220706030438_1_alg».proof.Proof.KernelRun
import proofs.«148420_j20220706030438_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result function of the (agreeing) arguments in their result buffers. -/
theorem algebraic : Cert.algebraic_KernelIdeal_ReferenceIdeal := by
  intro m ρ m' ρ' _ hagree
  refine ⟨fun c => Cert.ReferenceIdeal.Read.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.result m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v57_eq, h0, h1, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
